-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x64 : Shape := ⟨2, ![8192, 64]⟩
abbrev S8192x8192 : Shape := ⟨2, ![8192, 8192]⟩
abbrev S1024x64 : Shape := ⟨2, ![1024, 64]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 6
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x8192, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x1024, .f32⟩
  | .local _ .vmem, ⟨5, _⟩ => ⟨S1024x1024, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x64_S1024x64_0_0 : ∀ a, (![0, 0] : Fin 2 → Nat) a + S1024x64.size a ≤ S1024x64.size a
  h_S1024x64 : 0 < S1024x64.numel
  reduces_S1024x64_S1024 : S1024x64.Reduces [1] S1024
  shapeCasts_S1024_S1024x1 : S1024.ShapeCasts S1024x1
  bitsLt_bf16_f32 : FTy.bits .bf16 < FTy.bits .f32
  broadcasts_S1024x1_S1024x1024 : S1024x1.Broadcasts S1024x1024
  inb_S1024x1024_S1024x1024_0_0 : ∀ a, (![0, 0] : Fin 2 → Nat) a + S1024x1024.size a ≤ S1024x1024.size a
  h_S1024x1024 : 0 < S1024x1024.numel
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x64 : Shape := ⟨2, ![8192, 64]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩

abbrev nBuf : Space → Nat
  | .hbm => 11
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S8192x64, .f32⟩
  | .hbm, ⟨4, _⟩ => ⟨S8192x64, .f32⟩
  | .hbm, ⟨5, _⟩ => ⟨S_, .f32⟩
  | .hbm, ⟨6, _⟩ => ⟨S8192, .f32⟩
  | .hbm, ⟨7, _⟩ => ⟨S8192x8192, .f32⟩
  | .hbm, ⟨8, _⟩ => ⟨S8192x1, .f32⟩
  | .hbm, ⟨9, _⟩ => ⟨S8192x8192, .f32⟩
  | .hbm, ⟨10, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x64_S8192x64_S8192x8192_1_1_0_0_n_n_wf : DotDims.WF S8192x64 S8192x64 S8192x8192 [1] [1] [0] [0] [] []

variable [Facts₀]

def dot_S8192x64_S8192x64_S8192x8192_1_1_0_0_n_n : DotDims S8192x64 S8192x64 S8192x8192 where
  lhsContracting := [1]
  rhsContracting := [1]
  lhsNonContracting := [0]
  rhsNonContracting := [0]
  lhsBatch := []
  rhsBatch := []
  wf := dot_S8192x64_S8192x64_S8192x8192_1_1_0_0_n_n_wf

class Facts : Prop extends Facts₀ where

variable [Facts]
-- ==== Proof.KlTable.lean ====
/-
  The pairwise Kullback–Leibler table of two families of rows, over the extended reals.

  For rows `a n` (n < N) and `b m` (m < M) of length 64, entry (n, m) of the table is
      ∑ d, a(n,d) · log a(n,d)  −  ∑ d, a(n,d) · log b(m,d),
  the row's entropy term minus the cross term; it equals ∑ d, a(n,d) · (log a(n,d) − log b(m,d)) on finite
  positive data, but the two programs compared here both compute the difference of the two sums, so that is the
  form kept. The entry depends on row n of `a` and row m of `b` only: a table of sub-families of rows is the
  corresponding block of the whole table (`klTable_block`).
-/
import Idealize.ShloMosaic.Lib.ValueIdx
import Idealize.ShloMosaic.PureOps.Ideal.Laws

noncomputable section

namespace Cert.KlTable

open Idealize.ShloMosaic Idealize.ShloMosaic.ValueIdx

/-- Entry (n, m): the entropy term of row n of `a` minus its cross term with row m of `b`. -/
def klTable {N M : Nat} (a : FVec Ideal ⟨2, ![N, 64]⟩ .f32) (b : FVec Ideal ⟨2, ![M, 64]⟩ .f32) :
    FVec Ideal ⟨2, ![N, M]⟩ .f32 := fun i =>
  (∑ k : Fin 64, a (ix2 (i 0) k) * Ideal.log (a (ix2 (i 0) k)))
    - ∑ k : Fin 64, a (ix2 (i 0) k) * Ideal.log (b (ix2 (i 1) k))

theorem klTable_apply {N M : Nat} (a : FVec Ideal ⟨2, ![N, 64]⟩ .f32) (b : FVec Ideal ⟨2, ![M, 64]⟩ .f32)
    (n : Fin N) (m : Fin M) :
    klTable a b (ix2 n m) = (∑ k : Fin 64, a (ix2 n k) * Ideal.log (a (ix2 n k)))
      - ∑ k : Fin 64, a (ix2 n k) * Ideal.log (b (ix2 m k)) := rfl

/-- A table of sub-families is a block of the whole table: if `x` holds the rows of `A` from `r₀` on and `y` the
    rows of `B` from `c₀` on, the (p, q) entry of their table is the (r₀ + p, c₀ + q) entry of the table of `A`, `B`. -/
theorem klTable_block {N M n m : Nat} (A : FVec Ideal ⟨2, ![N, 64]⟩ .f32) (B : FVec Ideal ⟨2, ![M, 64]⟩ .f32)
    (x : FVec Ideal ⟨2, ![n, 64]⟩ .f32) (y : FVec Ideal ⟨2, ![m, 64]⟩ .f32)
    (p : Fin n) (q : Fin m) (r : Fin N) (c : Fin M)
    (hx : ∀ k : Fin 64, x (ix2 p k) = A (ix2 r k)) (hy : ∀ k : Fin 64, y (ix2 q k) = B (ix2 c k)) :
    klTable x y (ix2 p q) = klTable A B (ix2 r c) := by
  rw [klTable_apply, klTable_apply]
  simp only [hx, hy]

end Cert.KlTable

end
-- ==== Proof.KernelEntry.lean ====
/-
  One block of the kernel's result, entry by entry.

  The body computes, from a block `x0` of 1024 rows of `a` and a block `x1` of 1024 rows of `b`: the row sums of
  `x0 · log x0` (a lane reduction, laid out as a column and broadcast along the rows), the matrix product of `x0`
  with `log x1` contracted on both operands' second axis (the narrowing to bf16 is the identity on the extended reals,
  the accumulator is zero), and their difference. At entry (p, q) that is the pairwise KL table of the two blocks.
-/
import proofs.«146886_j18305150615592_1_alg».proof.Proof.Gen.KernelIdeal.Skeleton
import proofs.«146886_j18305150615592_1_alg».proof.Proof.KlTable
import Idealize.ShloMosaic.Lib.Pipeline.Value
import Idealize.ShloMosaic.Lib.ValueIdx
import Idealize.ShloMosaic.PureOps.Ideal.Laws

noncomputable section

namespace Cert.KernelIdeal.Entry

open Cert.KernelIdeal Cert.KernelIdeal.Gen Idealize.ShloMosaic Idealize.ShloMosaic.ValueIdx Cert.KlTable

/-! ## The entropy column: a lane sum, cast to a column, broadcast along the rows -/

/-- The row sums of a 1024×64 block, reshaped to a column and broadcast to 1024×1024, read at (p, q): the sum of row p. -/
theorem rowSum_bcast_apply (v : FVec Ideal S1024x64 .f32) (hφ : FKind.Formats .f32)
    (hacc : (0x00000000#32 : BitVec (FTy.bits .f32)) = FKind.add.neutral .f32 hφ) (p q : Fin 1024) :
    broadcastTo S1024x1024 (shapeCast S1024x1 (multiReduction .add [1] S1024 v 0x00000000#32 reduces_S1024x64_S1024 hφ hacc)
        shapeCasts_S1024_S1024x1) broadcasts_S1024x1_S1024x1024 (ix2 p q)
      = ∑ k : Fin 64, v (ix2 p k) := by
  rw [broadcastTo_apply _ broadcasts_S1024x1_S1024x1024 (ix2 p q) (ix2 p (0 : Fin 1)) (fun a => by
        match a with
        | ⟨0, _⟩ => show p.val = if (1024 : Nat) = 1 then 0 else p.val; rw [if_neg (by decide)]
        | ⟨1, _⟩ => show 0 = if (1 : Nat) = 1 then 0 else q.val; rw [if_pos rfl]),
    shapeCast_apply _ shapeCasts_S1024_S1024x1 (ix2 p (0 : Fin 1)) (ix1 p) (by
        rw [Shape.rowMajor_val_one, Shape.rowMajor_val_two]
        show p.val = p.val * 1 + 0; omega),
    Ideal.multiReduction_add_single]
  refine Finset.sum_congr rfl fun k _ => congrArg v ?_
  funext a
  apply Fin.ext
  match a with
  | ⟨0, _⟩ => rfl
  | ⟨1, _⟩ => rfl

/-! ## The cross term: the matrix product with both operands contracted on their second axis -/

theorem lhs_axis0 (i : S1024x1024.Idx) (q : dot_S1024x64_S1024x64_S1024x1024_1_1_0_0_n_n.contr.Idx) :
    (dot_S1024x64_S1024x64_S1024x1024_1_1_0_0_n_n.lhsIdx i q 0).val = (i 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl
theorem lhs_axis1 (i : S1024x1024.Idx) (q : dot_S1024x64_S1024x64_S1024x1024_1_1_0_0_n_n.contr.Idx) :
    (dot_S1024x64_S1024x64_S1024x1024_1_1_0_0_n_n.lhsIdx i q 1).val = (q ⟨0, by decide⟩).val :=
  dot_S1024x64_S1024x64_S1024x1024_1_1_0_0_n_n.lhsIdx_val_of_single rfl i q
theorem rhs_axis0 (i : S1024x1024.Idx) (q : dot_S1024x64_S1024x64_S1024x1024_1_1_0_0_n_n.contr.Idx) :
    (dot_S1024x64_S1024x64_S1024x1024_1_1_0_0_n_n.rhsIdx i q 0).val = (i 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl
theorem rhs_axis1 (i : S1024x1024.Idx) (q : dot_S1024x64_S1024x64_S1024x1024_1_1_0_0_n_n.contr.Idx) :
    (dot_S1024x64_S1024x64_S1024x1024_1_1_0_0_n_n.rhsIdx i q 1).val = (q ⟨0, by decide⟩).val :=
  dot_S1024x64_S1024x64_S1024x1024_1_1_0_0_n_n.rhsIdx_val_of_single rfl i q

/-- The product of a 1024×64 block with another, contracted on the 64-axis of both, into the zero accumulator, at (p, q):
    the sum over k of left (p, k) times right (q, k), whatever the operands' formats. -/
theorem cross_apply {φ₁ φ₂ : FTy} (l : FVec Ideal S1024x64 φ₁) (r : FVec Ideal S1024x64 φ₂) (p q : Fin 1024) :
    matmul dot_S1024x64_S1024x64_S1024x1024_1_1_0_0_n_n none l r (constant S1024x1024 .f32 0x00000000#32) (ix2 p q)
      = ∑ k : Fin 64, l (ix2 p k) * r (ix2 q k) := by
  simp only [matmul]
  rw [Ideal.matmul_constant_zero_apply, ← Equiv.sum_comp (contrEquiv1 dot_S1024x64_S1024x64_S1024x1024_1_1_0_0_n_n 64 rfl rfl).symm]
  refine Finset.sum_congr rfl fun k _ => ?_
  have hk := contrEquiv1_symm_val dot_S1024x64_S1024x64_S1024x1024_1_1_0_0_n_n 64 rfl rfl k
  have el : dot_S1024x64_S1024x64_S1024x1024_1_1_0_0_n_n.lhsIdx (ix2 p q) ((contrEquiv1 dot_S1024x64_S1024x64_S1024x1024_1_1_0_0_n_n 64 rfl rfl).symm k) = ix2 p k := funext fun a => Fin.ext (by
    match a with
    | ⟨0, _⟩ => exact lhs_axis0 _ _
    | ⟨1, _⟩ => exact (lhs_axis1 _ _).trans hk)
  have er : dot_S1024x64_S1024x64_S1024x1024_1_1_0_0_n_n.rhsIdx (ix2 p q) ((contrEquiv1 dot_S1024x64_S1024x64_S1024x1024_1_1_0_0_n_n 64 rfl rfl).symm k) = ix2 q k := funext fun a => Fin.ext (by
    match a with
    | ⟨0, _⟩ => exact rhs_axis0 _ _
    | ⟨1, _⟩ => exact (rhs_axis1 _ _).trans hk)
  rw [el, er]

/-! ## The block -/

/-- Entry (p, q) of what the body stores is entry (p, q) of the pairwise KL table of the two loaded blocks. -/
theorem pay_apply (x0 x1 : Vec Ideal S1024x64 .f32) (p q : Fin 1024) :
    k0_pay1 (F := Ideal) x0 x1 (ix2 p q) = klTable x0 x1 (ix2 p q) := by
  unfold k0_pay1
  exact (congrArg₂ (fun u v : EReal => u - v)
    (rowSum_bcast_apply (mulf x0 (log x0)) _ _ p q)
    (cross_apply (truncf .bf16 x0 bitsLt_bf16_f32) (truncf .bf16 (log x1) bitsLt_bf16_f32) p q)).trans rfl

end Cert.KernelIdeal.Entry

end
-- ==== Proof.KernelTable.lean ====
/-
  The kernel's result array is the pairwise KL table of its two argument arrays.

  The grid is 8 × 8. At point (ti, tj) the body sees rows [1024·ti, 1024·ti + 1024) of `a`, rows
  [1024·tj, 1024·tj + 1024) of `b`, and writes the 1024 × 1024 block (ti, tj) of the result. What it writes is the
  KL table of the two row blocks, which is that block of the KL table of the whole arrays, because an entry of the
  table depends on one row of each argument only. The 64 blocks tile the 8192 × 8192 result, so the array ends as the
  whole table.
-/
import proofs.«146886_j18305150615592_1_alg».proof.Proof.Gen.KernelIdeal.Value
import proofs.«146886_j18305150615592_1_alg».proof.Proof.KernelEntry
import proofs.«146886_j18305150615592_1_alg».proof.Proof.KlTable
import Idealize.ShloMosaic.Lib.Pipeline.Value
import Idealize.ShloMosaic.Lib.ValueIdx

set_option maxRecDepth 16384

noncomputable section

namespace Cert.KernelIdeal.Table

open Cert.KernelIdeal Cert.KernelIdeal.Gen Idealize.ShloMosaic Idealize.ShloMosaic.TcCoe Idealize.SL.Sem
open Idealize.ShloMosaic.ValueIdx Cert.KlTable Cert.KernelIdeal.Entry
open Idealize.ShloMosaic.Pipeline (Dat)

variable (m : (ℓ : Loc nD τ sig) → Buf (Elt Ideal) ℓ) (ρ : Dev nD → PrngReg)

theorem offset_zero : (![0, 0] : Fin 2 → Nat) = fun _ => 0 := funext fun a => by fin_cases a <;> rfl

/-- Where the three windows sit at a grid point: the `a` window at the output's block row, the `b` window at the
    output's block column, both at block column 0; the output's block coordinates are below 8. Decided over the 64 points. -/
theorem window_positions : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 7 ∧ win0_2.index t (1 : Fin 2) ≤ 7 :=
  (by decide +kernel : ∀ t : Fin grid0.N, _)

/-- Every block coordinate pair (q0, q1) below 8 is some grid point's output block. -/
theorem every_block : ∀ (q0 q1 : Fin 8), ∃ t : Fin cfg0.N, win0_2.index t = ![q0.val, q1.val] :=
  (by decide +kernel : ∀ (q0 q1 : Fin 8), ∃ t : Fin grid0.N, win0_2.index t = ![q0.val, q1.val])

/-- The body's stored value from two row blocks that sit at block rows `bi` of `A` and `bj` of `B`: at the local
    index `j` it is the table of `A`, `B` at (1024·bi + j₀, 1024·bj + j₁). -/
theorem block_entry (A B : Vec Ideal S8192x64 .f32) (x0 x1 : Vec Ideal S1024x64 .f32) (bi bj : Nat) (hbi : bi ≤ 7) (hbj : bj ≤ 7)
    (hx0 : ∀ (p : Fin 1024) (k : Fin 64), x0 (ix2 p k) = A (ix2 (⟨bi * 1024 + p.val, by have := p.isLt; omega⟩ : Fin 8192) k))
    (hx1 : ∀ (q : Fin 1024) (k : Fin 64), x1 (ix2 q k) = B (ix2 (⟨bj * 1024 + q.val, by have := q.isLt; omega⟩ : Fin 8192) k))
    (j : S1024x1024.Idx) :
    k0_pay1 (F := Ideal) x0 x1 j
      = klTable (N := 8192) (M := 8192) A B (ix2 (⟨bi * 1024 + (j 0).val, by have : (j 0).val < 1024 := (j 0).isLt; omega⟩ : Fin 8192)
          (⟨bj * 1024 + (j 1).val, by have : (j 1).val < 1024 := (j 1).isLt; omega⟩ : Fin 8192)) := by
  obtain ⟨p, q, rfl⟩ : ∃ (p q : Fin 1024), j = ix2 p q := ⟨j 0, j 1, eq_ix2 j⟩
  refine (pay_apply x0 x1 p q).trans ?_
  exact klTable_block A B x0 x1 p q _ _ (hx0 p) (hx1 q)

/-- WHAT POINT `t` WRITES BACK is block `t` of the KL table of the argument arrays. -/
theorem flushed_eq (c : Dev nD) (t : Fin cfg0.N) :
    (dats m 0 c).flushed 2 t
      = ((cfg0.win 2).blk t).view.read (Elt Ideal) (klTable (N := 8192) (M := 8192) (V m c main_arg0) (V m c main_arg1)) := by
  rw [Cert.KernelIdeal.Value.flushed2]
  unfold out0_2
  rw [View.canon_unit_zero offset_zero]
  simp only [View.ld_unit_zero (S := S1024x64) offset_zero]
  obtain ⟨e0, e1, e2, e3, e4, e5⟩ := window_positions t
  funext j
  refine (block_entry (V m c main_arg0) (V m c main_arg1) (iblk m c 0 t) (iblk m c 1 t)
    (win0_2.index t (0 : Fin 2)) (win0_2.index t (1 : Fin 2)) e4 e5 (fun p k => ?_) (fun q k => ?_) j).trans ?_
  · show V m c main_arg0 (((cfg0.win 0).blk t).view.emb (ix2 p k)) = V m c main_arg0 _
    refine congrArg (V m c main_arg0) (funext fun a => Fin.ext ?_)
    match a with
    | ⟨0, _⟩ => show win0_0.index t (0 : Fin 2) * 1024 + 1 * p.val = win0_2.index t (0 : Fin 2) * 1024 + p.val; omega
    | ⟨1, _⟩ => show win0_0.index t (1 : Fin 2) * 64 + 1 * k.val = k.val; omega
  · show V m c main_arg1 (((cfg0.win 1).blk t).view.emb (ix2 q k)) = V m c main_arg1 _
    refine congrArg (V m c main_arg1) (funext fun a => Fin.ext ?_)
    match a with
    | ⟨0, _⟩ => show win0_1.index t (0 : Fin 2) * 1024 + 1 * q.val = win0_2.index t (1 : Fin 2) * 1024 + q.val; omega
    | ⟨1, _⟩ => show win0_1.index t (1 : Fin 2) * 64 + 1 * k.val = k.val; omega
  · show klTable (N := 8192) (M := 8192) (V m c main_arg0) (V m c main_arg1) _
      = klTable (N := 8192) (M := 8192) (V m c main_arg0) (V m c main_arg1) (((cfg0.win 2).blk t).view.emb j)
    refine congrArg (klTable (N := 8192) (M := 8192) (V m c main_arg0) (V m c main_arg1)) (funext fun a => Fin.ext ?_)
    match a with
    | ⟨0, _⟩ => show win0_2.index t (0 : Fin 2) * 1024 + (j 0).val = win0_2.index t (0 : Fin 2) * 1024 + 1 * (j 0).val; omega
    | ⟨1, _⟩ => show win0_2.index t (1 : Fin 2) * 1024 + (j 1).val = win0_2.index t (1 : Fin 2) * 1024 + 1 * (j 1).val; omega

/-- An index of the result is in point `t`'s block iff each coordinate is in the block's range on its axis. -/
theorem mem_block (t : Fin cfg0.N) (i : S8192x8192.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- The 64 blocks cover the result: index (r, c) lies in the block of the point at block coordinates (r / 1024, c / 1024). -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := every_block ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- THE ARRAY after the run: the KL table of the argument arrays as launched. -/
theorem final (c : Dev nD) :
    (dats m 0 c).arrAt 2 cfg0.N
      = klTable (N := 8192) (M := 8192) (m ((c : Thread nD τ).loc main_arg0)) (m ((c : Thread nD τ).loc main_arg1)) :=
  (dats m 0 c).arrAt_eq_of_cover 2 (klTable (N := 8192) (M := 8192) (V m c main_arg0) (V m c main_arg1))
    (fun t _ => flushed_eq m c t) covered

/-- The run, read: the result array ends at the KL table of the arguments, the arguments unchanged. -/
theorem run : θ_run defs (onTc (τ := τ) (main (F := Ideal))) ⟨m, fun _ => 0, ρ⟩ fun r => ∀ c : Dev nD,
      r.2.mem ((c : Thread nD τ).loc main_v0)
        = klTable (N := 8192) (M := 8192) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.Table

end
-- ==== Proof.RefTable.lean ====
/-
  The reference's result is the pairwise KL table of its two arguments.

  The reference takes the logarithms of both arrays, sums `a · log a` along each row (from the initial value 0),
  contracts `a` with `log b` on the 64-axis of both, broadcasts the row sums along the columns and subtracts. Read at
  an index (n, m), stage by stage: (0 + ∑ k, a(n,k) · log a(n,k)) − ∑ k, a(n,k) · log b(m,k).
-/
import proofs.«146886_j18305150615592_1_alg».proof.Proof.Gen.ReferenceIdeal.Read
import proofs.«146886_j18305150615592_1_alg».proof.Proof.KlTable
import Idealize.ShloMosaic.Lib.ValueIdx
import Idealize.ShloMosaic.PureOps.Ideal.Laws

noncomputable section

namespace Cert.ReferenceIdeal.Table

open Cert.ReferenceIdeal Cert.ReferenceIdeal.Gen Cert.ReferenceIdeal.Read Idealize.ShloMosaic Idealize.ShloMosaic.ValueIdx Cert.KlTable

/-- The index the row sum reads at (row of `i`, k). -/
theorem idx_rowSum (i : S8192x8192.Idx) (k : Fin 64) : idx_main_v3 (idx_main_v5 (idx_main_v6 i)) k = ix2 (i 0) k :=
  funext fun a => Fin.ext (by match a with | ⟨0, _⟩ => rfl | ⟨1, _⟩ => rfl)

/-- The index the contraction reads its left operand at: (row of `i`, k). -/
theorem idx_left (i : S8192x8192.Idx) (k : Fin 64) : lidx_main_v4 i k = ix2 (i 0) k :=
  funext fun a => Fin.ext (by match a with | ⟨0, _⟩ => rfl | ⟨1, _⟩ => rfl)

/-- The index the contraction reads its right operand at: (column of `i`, k). -/
theorem idx_right (i : S8192x8192.Idx) (k : Fin 64) : ridx_main_v4 i k = ix2 (i 1) k :=
  funext fun a => Fin.ext (by match a with | ⟨0, _⟩ => rfl | ⟨1, _⟩ => rfl)

/-- The reference's last stage, as a function of the two arguments, is their pairwise KL table. -/
theorem result_eq (x0 x1 : (⟨S8192x64, .f32⟩ : BufTy).Contents (Elt Ideal)) :
    val_main_v7 (F := Ideal) x0 x1 = klTable x0 x1 := by
  funext i
  rw [val_main_v7_apply, val_main_v6_apply, val_main_v5_apply, val_main_v3_apply, val_main_v4_apply]
  simp only [val_main_v2_apply, val_main_v0_apply, val_main_v1_apply, val_main_cst_apply, idx_rowSum, idx_left, idx_right,
    Ideal.hostUnary_log_def, Ideal.mulf_def, Ideal.subf_def, Ideal.ofBits_def, Ideal.ofBits_zero_f32, zero_add]
  rfl

end Cert.ReferenceIdeal.Table

end
-- ==== Proof.lean ====
/-
  Pairwise Kullback–Leibler divergence of two families of 8192 rows of length 64, tiled kernel against whole-array reference.

  Both programs compute, at (n, m), the entropy term ∑ d, a(n,d) · log a(n,d) minus the cross term
  ∑ d, a(n,d) · log b(m,d) (`Cert.KlTable.klTable`). The kernel does it block by block over an 8 × 8 grid, the
  cross term as a matrix product whose operands are narrowed to bf16 — the identity on the extended reals — and
  accumulated into zero; the reference does it on whole arrays, its row sum starting from the initial value 0. Since
  an entry of the table reads one row of each argument only, the kernel's blocks are the blocks of the whole table
  (`Cert.KernelIdeal.Table.run`), and the reference's stages read at an index give the same table
  (`Cert.ReferenceIdeal.Table.result_eq`). No law beyond `0 + x = x` is used, so the finiteness of the inputs is never opened.
  The ideal pass rewrote nothing, so the idealization claim is trivial; the three frames are the generated ones.
-/
import proofs.«146886_j18305150615592_1_alg».proof.Defs
import proofs.«146886_j18305150615592_1_alg».proof.Proof.Gen.Kernel
import proofs.«146886_j18305150615592_1_alg».proof.Proof.Gen.Kernel.Skeleton
import proofs.«146886_j18305150615592_1_alg».proof.Proof.Gen.Kernel.Launch
import proofs.«146886_j18305150615592_1_alg».proof.Proof.Gen.Kernel.Points
import proofs.«146886_j18305150615592_1_alg».proof.Proof.Gen.Kernel.Frame
import proofs.«146886_j18305150615592_1_alg».proof.Proof.Gen.KernelIdeal
import proofs.«146886_j18305150615592_1_alg».proof.Proof.Gen.KernelIdeal.Skeleton
import proofs.«146886_j18305150615592_1_alg».proof.Proof.Gen.KernelIdeal.Launch
import proofs.«146886_j18305150615592_1_alg».proof.Proof.Gen.KernelIdeal.Points
import proofs.«146886_j18305150615592_1_alg».proof.Proof.Gen.KernelIdeal.Frame
import proofs.«146886_j18305150615592_1_alg».proof.Proof.Gen.ReferenceIdeal
import proofs.«146886_j18305150615592_1_alg».proof.Proof.Gen.Pre_finite_inputs
import proofs.«146886_j18305150615592_1_alg».proof.Proof.Gen.KernelIdeal.Value
import proofs.«146886_j18305150615592_1_alg».proof.Proof.Gen.ReferenceIdeal.Run
import proofs.«146886_j18305150615592_1_alg».proof.Proof.Gen.ReferenceIdeal.Read
import proofs.«146886_j18305150615592_1_alg».proof.Proof.KlTable
import proofs.«146886_j18305150615592_1_alg».proof.Proof.KernelTable
import proofs.«146886_j18305150615592_1_alg».proof.Proof.RefTable
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at the KL table of the (agreeing) arguments. -/
theorem algebraic : Cert.algebraic_KernelIdeal_ReferenceIdeal := by
  intro m ρ m' ρ' _ hagree
  refine ⟨fun c => Cert.KlTable.klTable (N := 8192) (M := 8192)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Table.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.Table.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
